-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1 : Shape := ⟨3, ![8, 1024, 1]⟩
abbrev S8x1024x8 : Shape := ⟨3, ![8, 1024, 8]⟩
abbrev S9 : Shape := ⟨1, ![9]⟩
abbrev S16x9 : Shape := ⟨2, ![16, 9]⟩
abbrev S16 : Shape := ⟨1, ![16]⟩
abbrev S_ : Shape := ⟨0, ![]⟩

class Facts : Prop where
  bcast_S_S8x1024x1 : S_.BroadcastsInDim S8x1024x1 (![] : Fin 0 → Fin S8x1024x1.rank)
  reducesTo_S8x1024x1_S_d0_1_2 : S8x1024x1.ReducesTo [0, 1, 2] S_
  h_S_ : 0 < S_.numel
  bcast_S_S8x1024x8 : S_.BroadcastsInDim S8x1024x8 (![] : Fin 0 → Fin S8x1024x8.rank)
  reducesTo_S8x1024x8_S_d0_1_2 : S8x1024x8.ReducesTo [0, 1, 2] S_
  bcast_S_S9 : S_.BroadcastsInDim S9 (![] : Fin 0 → Fin S9.rank)
  reducesTo_S9_S_d0 : S9.ReducesTo [0] S_
  bcast_S_S16x9 : S_.BroadcastsInDim S16x9 (![] : Fin 0 → Fin S16x9.rank)
  reducesTo_S16x9_S_d0_1 : S16x9.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16x9 .f32) (main_arg5 : FVec F S16 .f32) (main_v13 : IVec S_ 1) (main_v16 : IVec S9 1) : IVec S_ 1 :=
  let main_c_5 : IVec S_ 1 := constantI S_ 1 1#1
  let main_v17 : IVec S_ 1 := (fun x v => Host.reduce IntOp.andi x v reducesTo_S9_S_d0 h_S_) main_v16 main_c_5
  let main_v18 : IVec S_ 1 := andi main_v13 main_v17
  let main_v19 : FVec F S16x9 .f32 := Host.absf main_arg4
  let main_cst_6 : FVec F S_ .f32 := constant S_ .f32 0x7F800000#32
  let main_v20 : FVec F S16x9 .f32 := broadcastInDim S16x9 ![] bcast_S_S16x9 main_cst_6
  let main_v21 : IVec S16x9 1 := cmpf .olt main_v19 main_v20
  let main_c_7 : IVec S_ 1 := constantI S_ 1 1#1
  let main_v22 : IVec S_ 1 := (fun x v => Host.reduce IntOp.andi x v reducesTo_S16x9_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S8x1024x1 .f32) (main_arg1 : FVec F S8x1024x8 .f32) (main_arg2 : FVec F S8x1024x1 .f32) (main_arg3 : FVec F S9 .f32) (main_arg4 : FVec F S16x9 .f32) (main_arg5 : FVec F S16 .f32) : IVec S_ 1 :=
  let main_v0 : FVec F S8x1024x1 .f32 := Host.absf main_arg0
  let main_cst : FVec F S_ .f32 := constant S_ .f32 0x7F800000#32
  let main_v1 : FVec F S8x1024x1 .f32 := broadcastInDim S8x1024x1 ![] bcast_S_S8x1024x1 main_cst
  let main_v2 : IVec S8x1024x1 1 := cmpf .olt main_v0 main_v1
  let main_c : IVec S_ 1 := constantI S_ 1 1#1
  let main_v3 : IVec S_ 1 := (fun x v => Host.reduce IntOp.andi x v reducesTo_S8x1024x1_S_d0_1_2 h_S_) main_v2 main_c
  let main_v4 : FVec F S8x1024x8 .f32 := Host.absf main_arg1
  let main_cst_0 : FVec F S_ .f32 := constant S_ .f32 0x7F800000#32
  let main_v5 : FVec F S8x1024x8 .f32 := broadcastInDim S8x1024x8 ![] bcast_S_S8x1024x8 main_cst_0
  let main_v6 : IVec S8x1024x8 1 := cmpf .olt main_v4 main_v5
  let main_c_1 : IVec S_ 1 := constantI S_ 1 1#1
  let main_v7 : IVec S_ 1 := (fun x v => Host.reduce IntOp.andi x v reducesTo_S8x1024x8_S_d0_1_2 h_S_) main_v6 main_c_1
  let main_v8 : IVec S_ 1 := andi main_v3 main_v7
  let main_v9 : FVec F S8x1024x1 .f32 := Host.absf main_arg2
  let main_cst_2 : FVec F S_ .f32 := constant S_ .f32 0x7F800000#32
  let main_v10 : FVec F S8x1024x1 .f32 := broadcastInDim S8x1024x1 ![] bcast_S_S8x1024x1 main_cst_2
  let main_v11 : IVec S8x1024x1 1 := cmpf .olt main_v9 main_v10
  let main_c_3 : IVec S_ 1 := constantI S_ 1 1#1
  let main_v12 : IVec S_ 1 := (fun x v => Host.reduce IntOp.andi x v reducesTo_S8x1024x1_S_d0_1_2 h_S_) main_v11 main_c_3
  let main_v13 : IVec S_ 1 := andi main_v8 main_v12
  let main_v14 : FVec F S9 .f32 := Host.absf main_arg3
  let main_cst_4 : FVec F S_ .f32 := constant S_ .f32 0x7F800000#32
  let main_v15 : FVec F S9 .f32 := broadcastInDim S9 ![] bcast_S_S9 main_cst_4
  let main_v16 : IVec S9 1 := cmpf .olt main_v14 main_v15
  fn_part1 (F := F) main_arg4 main_arg5 main_v13 main_v16
-- ==== Kernel.lean ====
abbrev S8x1024x1 : Shape := ⟨3, ![8, 1024, 1]⟩
abbrev S8x1024x8 : Shape := ⟨3, ![8, 1024, 8]⟩
abbrev S9 : Shape := ⟨1, ![9]⟩
abbrev S16x9 : Shape := ⟨2, ![16, 9]⟩
abbrev S16 : Shape := ⟨1, ![16]⟩
abbrev S1x9 : Shape := ⟨2, ![1, 9]⟩
abbrev S1x16 : Shape := ⟨2, ![1, 16]⟩
abbrev S8x1024x16 : Shape := ⟨3, ![8, 1024, 16]⟩
abbrev S1x1024x1 : Shape := ⟨3, ![1, 1024, 1]⟩
abbrev S1x1024x8 : Shape := ⟨3, ![1, 1024, 8]⟩
abbrev S1x128x1 : Shape := ⟨3, ![1, 128, 1]⟩
abbrev S1x128x16 : Shape := ⟨3, ![1, 128, 16]⟩
abbrev S1024x1 : Shape := ⟨2, ![1024, 1]⟩
abbrev S1024x8 : Shape := ⟨2, ![1024, 8]⟩
abbrev S128x1 : Shape := ⟨2, ![128, 1]⟩
abbrev S1x1024 : Shape := ⟨2, ![1, 1024]⟩
abbrev S128x1024 : Shape := ⟨2, ![128, 1024]⟩
abbrev S1x128x1024 : Shape := ⟨3, ![1, 128, 1024]⟩
abbrev S9x1x1 : Shape := ⟨3, ![9, 1, 1]⟩
abbrev S9x128x1024 : Shape := ⟨3, ![9, 128, 1024]⟩
abbrev S1024x9 : Shape := ⟨2, ![1024, 9]⟩
abbrev S9x1024 : Shape := ⟨2, ![9, 1024]⟩
abbrev S9x1x1024 : Shape := ⟨3, ![9, 1, 1024]⟩
abbrev S9x128 : Shape := ⟨2, ![9, 128]⟩
abbrev S1x128 : Shape := ⟨2, ![1, 128]⟩
abbrev S8x128 : Shape := ⟨2, ![8, 128]⟩
abbrev S128x9 : Shape := ⟨2, ![128, 9]⟩
abbrev S128x9x1 : Shape := ⟨3, ![128, 9, 1]⟩
abbrev S9x16 : Shape := ⟨2, ![9, 16]⟩
abbrev S1x9x16 : Shape := ⟨3, ![1, 9, 16]⟩
abbrev S128x9x16 : Shape := ⟨3, ![128, 9, 16]⟩
abbrev S128x16 : Shape := ⟨2, ![128, 16]⟩

abbrev nBuf : Space → Nat
  | .hbm => 9
  | .vmem => 11
  | .smem => 0
  | _ => 0

abbrev bufTy : (tb : Table) → Fin (tcTables nBuf tb) → BufTy
  | .hbm, ⟨0, _⟩ => ⟨S8x1024x1, .f32⟩
  | .hbm, ⟨1, _⟩ => ⟨S8x1024x8, .f32⟩
  | .hbm, ⟨2, _⟩ => ⟨S8x1024x1, .f32⟩
  | .hbm, ⟨3, _⟩ => ⟨S9, .f32⟩
  | .hbm, ⟨4, _⟩ => ⟨S16x9, .f32⟩
  | .hbm, ⟨5, _⟩ => ⟨S16, .f32⟩
  | .hbm, ⟨6, _⟩ => ⟨S1x9, .f32⟩
  | .hbm, ⟨7, _⟩ => ⟨S1x16, .f32⟩
  | .hbm, ⟨8, _⟩ => ⟨S8x1024x16, .f32⟩
  | .local _ .vmem, ⟨0, _⟩ => ⟨S1x1024x1, .f32⟩
  | .local _ .vmem, ⟨1, _⟩ => ⟨S1x1024x1, .f32⟩
  | .local _ .vmem, ⟨2, _⟩ => ⟨S1x1024x8, .f32⟩
  | .local _ .vmem, ⟨3, _⟩ => ⟨S1x1024x8, .f32⟩
  | .local _ .vmem, ⟨4, _⟩ => ⟨S1x128x1, .f32⟩
  | .local _ .vmem, ⟨5, _⟩ => ⟨S1x128x1, .f32⟩
  | .local _ .vmem, ⟨6, _⟩ => ⟨S1x9, .f32⟩
  | .local _ .vmem, ⟨7, _⟩ => ⟨S16x9, .f32⟩
  | .local _ .vmem, ⟨8, _⟩ => ⟨S1x16, .f32⟩
  | .local _ .vmem, ⟨9, _⟩ => ⟨S1x128x16, .f32⟩
  | .local _ .vmem, ⟨10, _⟩ => ⟨S1x128x16, .f32⟩
  | _, _ => ⟨S8x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S9_S1x9 : S9.ShapeCasts S1x9
  shapeCasts_S16_S1x16 : S16.ShapeCasts S1x16
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1024x8_S1x1024x8_0_0_0 : ∀ a, (![0, 0, 0] : Fin 3 → Nat) a + S1x1024x8.size a ≤ S1x1024x8.size a
  h_S1x1024x8 : 0 < S1x1024x8.numel
  shapeCasts_S1x1024x8_S1024x8 : S1x1024x8.ShapeCasts S1024x8
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x9_S1x9_0_0 : ∀ a, (![0, 0] : Fin 2 → Nat) a + S1x9.size a ≤ S1x9.size a
  h_S1x9 : 0 < S1x9.numel
  shapeCasts_S1x9_S9 : S1x9.ShapeCasts S9
  inb_S16x9_S16x9_0_0 : ∀ a, (![0, 0] : Fin 2 → Nat) a + S16x9.size a ≤ S16x9.size a
  h_S16x9 : 0 < S16x9.numel
  inb_S1x16_S1x16_0_0 : ∀ a, (![0, 0] : Fin 2 → Nat) a + S1x16.size a ≤ S1x16.size a
  h_S1x16 : 0 < S1x16.numel
  shapeCasts_S1x16_S16 : S1x16.ShapeCasts S16
  transposes_S1024x1_p1_0_S1x1024 : S1024x1.Transposes [1, 0] S1x1024
  broadcasts_S128x1_S128x1024 : S128x1.Broadcasts S128x1024
  broadcasts_S1x1024_S128x1024 : S1x1024.Broadcasts S128x1024
  shapeCasts_S128x1024_S1x128x1024 : S128x1024.ShapeCasts S1x128x1024
  shapeCasts_S9_S9x1x1 : S9.ShapeCasts S9x1x1
  broadcasts_S1x128x1024_S9x128x1024 : S1x128x1024.Broadcasts S9x128x1024
  broadcasts_S9x1x1_S9x128x1024 : S9x1x1.Broadcasts S9x128x1024
  concatenates_S1024x1_S1024x8_S1024x9_d1 : Shape.Concatenates [S1024x1, S1024x8] S1024x9 1
  transposes_S1024x9_p1_0_S9x1024 : S1024x9.Transposes [1, 0] S9x1024
  shapeCasts_S9x1024_S9x1x1024 : S9x1024.ShapeCasts S9x1x1024
  broadcasts_S9x1x1024_S9x128x1024 : S9x1x1024.Broadcasts S9x128x1024
  reduces_S9x128x1024_S9x128 : S9x128x1024.Reduces [2] S9x128
  slices_S9x128_o0_0_S1x128 : S9x128.Slices ![0, 0] S1x128
  slices_S9x128_o1_0_S8x128 : S9x128.Slices ![1, 0] S8x128
  broadcasts_S1x128_S8x128 : S1x128.Broadcasts S8x128
  concatenates_S1x128_S8x128_S9x128_d0 : Shape.Concatenates [S1x128, S8x128] S9x128 0
  transposes_S9x128_p1_0_S128x9 : S9x128.Transposes [1, 0] S128x9
  shapeCasts_S128x9_S128x9x1 : S128x9.ShapeCasts S128x9x1
  transposes_S16x9_p1_0_S9x16 : S16x9.Transposes [1, 0] S9x16
  shapeCasts_S9x16_S1x9x16 : S9x16.ShapeCasts S1x9x16
  broadcasts_S128x9x1_S128x9x16 : S128x9x1.Broadcasts S128x9x16
  broadcasts_S1x9x16_S128x9x16 : S1x9x16.Broadcasts S128x9x16
  reduces_S128x9x16_S128x16 : S128x9x16.Reduces [1] S128x16
  broadcasts_S1x16_S128x16 : S1x16.Broadcasts S128x16
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  shapeCasts_S128x16_S1x128x16 : S128x16.ShapeCasts S1x128x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S8x1024x1.size a
  hwx0_0 : ∀ i : grid0.Coords, EltTy.bits .f32 = 32 ∨ (Rect.block (s := S8x1024x1) S1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x8.size a ≤ S8x1024x8.size a
  hwx0_1 : ∀ i : grid0.Coords, EltTy.bits .f32 = 32 ∨ (Rect.block (s := S8x1024x8) S1x1024x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S8x1024x1.size a
  hwx0_2 : ∀ i : grid0.Coords, EltTy.bits .f32 = 32 ∨ (Rect.block (s := S8x1024x1) S1x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x9.size a ≤ S1x9.size a
  hwx0_3 : ∀ i : grid0.Coords, EltTy.bits .f32 = 32 ∨ (Rect.block (s := S1x9) S1x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x9.size a ≤ S16x9.size a
  hwx0_4 : ∀ i : grid0.Coords, EltTy.bits .f32 = 32 ∨ (Rect.block (s := S16x9) S16x9.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x16.size a ≤ S8x1024x16.size a
  hwx0_6 : ∀ i : grid0.Coords, EltTy.bits .f32 = 32 ∨ (Rect.block (s := S8x1024x16) S1x128x16.size (cc0_transform_6 i) (hinb0_6 i)).WholeWords (EltTy.packing .f32)

variable [Facts₀]

abbrev win0_0 : Pipeline.Window sig grid0 :=
  Pipeline.Window.ofSpec (Memref.whole main_arg0) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x1024x1 : Shape := ⟨3, ![8, 1024, 1]⟩
abbrev S8x1024x8 : Shape := ⟨3, ![8, 1024, 8]⟩
abbrev S9 : Shape := ⟨1, ![9]⟩
abbrev S16x9 : Shape := ⟨2, ![16, 9]⟩
abbrev S16 : Shape := ⟨1, ![16]⟩
abbrev S8x1x1024 : Shape := ⟨3, ![8, 1, 1024]⟩
abbrev S8x1024x1024 : Shape := ⟨3, ![8, 1024, 1024]⟩
abbrev S8x1024x1024x1 : Shape := ⟨4, ![8, 1024, 1024, 1]⟩
abbrev S_ : Shape := ⟨0, ![]⟩
abbrev S1x1x1x9 : Shape := ⟨4, ![1, 1, 1, 9]⟩
abbrev S8x1024x1024x9 : Shape := ⟨4, ![8, 1024, 1024, 9]⟩
abbrev S8x1024x9 : Shape := ⟨3, ![8, 1024, 9]⟩
abbrev S8x1024x1x9 : Shape := ⟨4, ![8, 1024, 1, 9]⟩
abbrev S8x1024x16 : Shape := ⟨3, ![8, 1024, 16]⟩
abbrev S1x1x16 : Shape := ⟨3, ![1, 1, 16]⟩

abbrev nBuf : Space → Nat
  | .hbm => 43
  | .vmem => 0
  | .smem => 0
  | _ => 0

abbrev bufTy : (tb : Table) → Fin (tcTables nBuf tb) → BufTy
  | .hbm, ⟨0, _⟩ => ⟨S8x1024x1, .f32⟩
  | .hbm, ⟨1, _⟩ => ⟨S8x1024x8, .f32⟩
  | .hbm, ⟨2, _⟩ => ⟨S8x1024x1, .f32⟩
  | .hbm, ⟨3, _⟩ => ⟨S9, .f32⟩
  | .hbm, ⟨4, _⟩ => ⟨S16x9, .f32⟩
  | .hbm, ⟨5, _⟩ => ⟨S16, .f32⟩
  | .hbm, ⟨6, _⟩ => ⟨S8x1x1024, .f32⟩
  | .hbm, ⟨7, _⟩ => ⟨S8x1024x1024, .f32⟩
  | .hbm, ⟨8, _⟩ => ⟨S8x1024x1024, .f32⟩
  | .hbm, ⟨9, _⟩ => ⟨S8x1024x1024, .f32⟩
  | .hbm, ⟨10, _⟩ => ⟨S8x1024x1024, .f32⟩
  | .hbm, ⟨11, _⟩ => ⟨S9, .f32⟩
  | .hbm, ⟨12, _⟩ => ⟨S8x1024x1024x1, .f32⟩
  | .hbm, ⟨13, _⟩ => ⟨S_, .f32⟩
  | .hbm, ⟨14, _⟩ => ⟨S8x1024x1024x1, .f32⟩
  | .hbm, ⟨15, _⟩ => ⟨S8x1024x1024x1, .f32⟩
  | .hbm, ⟨16, _⟩ => ⟨S9, .f32⟩
  | .hbm, ⟨17, _⟩ => ⟨S1x1x1x9, .f32⟩
  | .hbm, ⟨18, _⟩ => ⟨S8x1024x1024x9, .f32⟩
  | .hbm, ⟨19, _⟩ => ⟨S8x1024x1024x9, .f32⟩
  | .hbm, ⟨20, _⟩ => ⟨S8x1024x1024x9, .f32⟩
  | .hbm, ⟨21, _⟩ => ⟨S8x1024x1024x9, .f32⟩
  | .hbm, ⟨22, _⟩ => ⟨S8x1024x1, .f32⟩
  | .hbm, ⟨23, _⟩ => ⟨S_, .f32⟩
  | .hbm, ⟨24, _⟩ => ⟨S8x1024x1, .f32⟩
  | .hbm, ⟨25, _⟩ => ⟨S8x1024x9, .f32⟩
  | .hbm, ⟨26, _⟩ => ⟨S8x1024x1x9, .f32⟩
  | .hbm, ⟨27, _⟩ => ⟨S8x1024x1024x9, .f32⟩
  | .hbm, ⟨28, _⟩ => ⟨S8x1024x1024x9, .f32⟩
  | .hbm, ⟨29, _⟩ => ⟨S_, .f32⟩
  | .hbm, ⟨30, _⟩ => ⟨S8x1024x9, .f32⟩
  | .hbm, ⟨31, _⟩ => ⟨S8x1024x1, .f32⟩
  | .hbm, ⟨32, _⟩ => ⟨S8x1024x8, .f32⟩
  | .hbm, ⟨33, _⟩ => ⟨S_, .f32⟩
  | .hbm, ⟨34, _⟩ => ⟨S8x1024x1, .f32⟩
  | .hbm, ⟨35, _⟩ => ⟨S8x1024x1, .f32⟩
  | .hbm, ⟨36, _⟩ => ⟨S8x1024x8, .f32⟩
  | .hbm, ⟨37, _⟩ => ⟨S8x1024x8, .f32⟩
  | .hbm, ⟨38, _⟩ => ⟨S8x1024x9, .f32⟩
  | .hbm, ⟨39, _⟩ => ⟨S8x1024x16, .f32⟩
  | .hbm, ⟨40, _⟩ => ⟨S1x1x16, .f32⟩
  | .hbm, ⟨41, _⟩ => ⟨S8x1024x16, .f32⟩
  | .hbm, ⟨42, _⟩ => ⟨S8x1024x16, .f32⟩
  | _, _ => ⟨S8x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  transposes_S8x1024x1_S8x1x1024_0_2_1 : S8x1024x1.Transposes [0, 2, 1] S8x1x1024
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  bcast_S8x1024x1024_S8x1024x1024x1_0_1_2 : S8x1024x1024.BroadcastsInDim S8x1024x1024x1 (![0, 1, 2] : Fin 3 → Fin S8x1024x1024x1.rank)
  bcast_S_S8x1024x1024x1 : S_.BroadcastsInDim S8x1024x1024x1 (![] : Fin 0 → Fin S8x1024x1024x1.rank)
  bcast_S9_S1x1x1x9_3 : S9.BroadcastsInDim S1x1x1x9 (![3] : Fin 1 → Fin S1x1x1x9.rank)
  bcast_S8x1024x1024x1_S8x1024x1024x9_0_1_2_3 : S8x1024x1024x1.BroadcastsInDim S8x1024x1024x9 (![0, 1, 2, 3] : Fin 4 → Fin S8x1024x1024x9.rank)
  bcast_S1x1x1x9_S8x1024x1024x9_0_1_2_3 : S1x1x1x9.BroadcastsInDim S8x1024x1024x9 (![0, 1, 2, 3] : Fin 4 → Fin S8x1024x1024x9.rank)
  slices_S8x1024x8_S8x1024x1_0_0_0 : S8x1024x8.Slices ![0, 0, 0] S8x1024x1
  bcast_S_S8x1024x1 : S_.BroadcastsInDim S8x1024x1 (![] : Fin 0 → Fin S8x1024x1.rank)
  concatenates_S8x1024x1_S8x1024x8_S8x1024x9_d2 : Shape.Concatenates [S8x1024x1, S8x1024x8] S8x1024x9 2
  bcast_S8x1024x9_S8x1024x1x9_0_1_3 : S8x1024x9.BroadcastsInDim S8x1024x1x9 (![0, 1, 3] : Fin 3 → Fin S8x1024x1x9.rank)
  bcast_S8x1024x1x9_S8x1024x1024x9_0_1_2_3 : S8x1024x1x9.BroadcastsInDim S8x1024x1024x9 (![0, 1, 2, 3] : Fin 4 → Fin S8x1024x1024x9.rank)
  reducesTo_S8x1024x1024x9_S8x1024x9_d1 : S8x1024x1024x9.ReducesTo [1] S8x1024x9
  h_S_ : 0 < S_.numel
  slices_S8x1024x9_S8x1024x1_0_0_0 : S8x1024x9.Slices ![0, 0, 0] S8x1024x1
  slices_S8x1024x9_S8x1024x8_0_0_1 : S8x1024x9.Slices ![0, 0, 1] S8x1024x8
  bcast_S8x1024x1_S8x1024x8_0_1_2 : S8x1024x1.BroadcastsInDim S8x1024x8 (![0, 1, 2] : Fin 3 → Fin S8x1024x8.rank)
  bcast_S16_S1x1x16_2 : S16.BroadcastsInDim S1x1x16 (![2] : Fin 1 → Fin S1x1x16.rank)
  bcast_S1x1x16_S8x1024x16_0_1_2 : S1x1x16.BroadcastsInDim S8x1024x16 (![0, 1, 2] : Fin 3 → Fin S8x1024x16.rank)
  dot_S8x1024x9_S16x9_S8x1024x16_2_1_01_0_n_n_wf : DotDims.WF S8x1024x9 S16x9 S8x1024x16 [2] [1] [0, 1] [0] [] []

variable [Facts₀]

def dot_S8x1024x9_S16x9_S8x1024x16_2_1_01_0_n_n : DotDims S8x1024x9 S16x9 S8x1024x16 where
  lhsContracting := [2]
  rhsContracting := [1]
  lhsNonContracting := [0, 1]
  rhsNonContracting := [0]
  lhsBatch := []
  rhsBatch := []
  wf := dot_S8x1024x9_S16x9_S8x1024x16_2_1_01_0_n_n_wf

class Facts : Prop extends Facts₀ where

variable [Facts]
-- ==== Proof.Finite.lean ====
/-
  Finite inputs are real numbers.

  The precondition says, for each of the six argument arrays, that every entry has absolute value below
  `+∞`, and joins the six statements by `and`. Over the extended reals an absolute value `max x (-x)`
  is below `⊤` exactly when `x` is neither `⊥` nor `⊤`: for either infinity one of `x`, `-x` is `⊤`,
  so the maximum is `⊤`, which is not below itself. Hence every entry of an array the precondition
  speaks of is the image of a real number. This is read off here for the three arrays the algebra needs:
  the context positions, the target positions and the log-scales.
-/
import proofs.«116332_j463856468358_1_alg».proof.Pre_finite_inputs
import Idealize.ShloMosaic.PureOps.Ideal
import Idealize.ShloMosaic.Lib.ValueIdx
import Idealize.ShloMosaic.Lib.ReduceAll
import Idealize.ShloMosaic.Lib.Affine

namespace Cert.Finite
open Idealize.ShloMosaic
variable [Cert.Pre_finite_inputs.Facts]

/-- The pattern `0x7F800000` (sign 0, exponent all ones, significand 0) denotes `+∞`. -/
private theorem ofBits_inf : Ideal.ofBits .f32 0x7F800000#32 = (⊤ : EReal) := by
  simp [Ideal.ofBits, Ideal.ieee]

/-- An extended real whose absolute value `max x (-x)` compares below `+∞` is a real number:
    at `⊥` and at `⊤` the maximum is `⊤`, and `⊤ < ⊤` is false. -/
private theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- A rank-0 array has one index. -/
local instance : Subsingleton Cert.Pre_finite_inputs.S_.Idx := ⟨fun a b => funext fun d => d.elim0⟩

/-- Under the precondition every context position, every target position and every log-scale is a real number.
    The predicate's one word is the `and` of six words, one per array; each of those is an `and` over all
    entries of the comparison `|x| < +∞`, so it being 1 gives the comparison at every index. -/
theorem real_of_pre
    (x0 : FVec Ideal Cert.Pre_finite_inputs.S8x1024x1 .f32) (x1 : FVec Ideal Cert.Pre_finite_inputs.S8x1024x8 .f32)
    (x2 : FVec Ideal Cert.Pre_finite_inputs.S8x1024x1 .f32) (x3 : FVec Ideal Cert.Pre_finite_inputs.S9 .f32)
    (x4 : FVec Ideal Cert.Pre_finite_inputs.S16x9 .f32) (x5 : FVec Ideal Cert.Pre_finite_inputs.S16 .f32)
    (h : Cert.Pre_finite_inputs.fn (F := Ideal) x0 x1 x2 x3 x4 x5 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, Idealize.ShloMosaic.andi] at h0
  -- the six words are joined to the left: (((((w0 ∧ w1) ∧ w2) ∧ w3) ∧ w4) ∧ w5)
  obtain ⟨h5, _⟩ := IntOp.andi_eq_one.1 h0
  obtain ⟨h4, _⟩ := IntOp.andi_eq_one.1 h5
  obtain ⟨h3, e3⟩ := IntOp.andi_eq_one.1 h4
  obtain ⟨h2, e2⟩ := IntOp.andi_eq_one.1 h3
  obtain ⟨e0, _⟩ := IntOp.andi_eq_one.1 h2
  -- at an index the compared pair is `max (x i) (-(x i))` and the broadcast constant `+∞`
  refine ⟨fun i => ?_, fun i => ?_, fun i => ?_⟩
  · exact real_of_abs_lt_inf (x0 i) (Host.reduce_andi_all _ _ _ _ _ e0 i)
  · exact real_of_abs_lt_inf (x2 i) (Host.reduce_andi_all _ _ _ _ _ e2 i)
  · exact real_of_abs_lt_inf (x3 i) (Host.reduce_andi_all _ _ _ _ _ e3 i)

end Cert.Finite
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.Spec.lean ====
/-
  The set-convolution layer as ONE function of the six argument arrays.

  For a batch `b`, a target point `m` and a channel `c` the layer weighs every context point `n` by the
  radial basis function `exp(-½ (t_m - x_n)² / s_c²)`, `s_c = exp σ_c`, and sums the weighted channel values
  (channel 0 is the constant one: the density; channel `k+1` is the `k`-th observed value). The density is kept,
  every other channel is divided by `density + ε`, and a linear layer `W`, `bias` mixes the nine features
  into sixteen outputs.

  The two programs arrange the weight differently: one multiplies `-½ (t - x)²` by the reciprocal
  `1 / (s·s)`, the other divides `-½ (x - t)²` by `s·s`. On real (finite) `t`, `x`, `σ` the two agree:
  `s·s` is a positive real, so dividing by it is multiplying by its reciprocal, and the square of a
  difference does not see its sign.
-/
import Idealize.ShloMosaic.PureOps.Ideal
import Idealize.ShloMosaic.Lib.ValueIdx
import proofs.«116332_j463856468358_1_alg».proof.Proof.LibCoe

noncomputable section

namespace Cert.Spec

open Idealize.ShloMosaic Idealize.ShloMosaic.ValueIdx
open Finset BigOperators

/-- The shapes of the argument arrays and of the result. -/
abbrev SX : Shape := ⟨3, ![8, 1024, 1]⟩
abbrev SY : Shape := ⟨3, ![8, 1024, 8]⟩
abbrev SSig : Shape := ⟨1, ![9]⟩
abbrev SW : Shape := ⟨2, ![16, 9]⟩
abbrev SB : Shape := ⟨1, ![16]⟩
abbrev SOut : Shape := ⟨3, ![8, 1024, 16]⟩

/-- The radial weight with the scale as a RECIPROCAL factor: `exp((-½ (t - x)²) · (1 / (eˢ eˢ)))`. -/
def wMul (t x s : EReal) : EReal :=
  Ideal.exp ((Ideal.ofBits .f32 0xBF000000#32 * ((t - x) * (t - x)))
    * Ideal.div (Ideal.ofBits .f32 0x3F800000#32) (Ideal.exp s * Ideal.exp s))

/-- The radial weight with the scale as a DIVISOR: `exp((-½ (x - t)²) / (eˢ eˢ))`. -/
def wDiv (t x s : EReal) : EReal :=
  Ideal.exp (Ideal.div (Ideal.ofBits .f32 0xBF000000#32 * ((x - t) * (x - t))) (Ideal.exp s * Ideal.exp s))

/-- On real arguments the two arrangements are one number: `eˢ eˢ` is a non-zero real, so the quotient by it is the
    product with its reciprocal (and `1 · r = r`), and `(t - x)² = (x - t)²`. -/
theorem wMul_eq_wDiv (t x s : ℝ) : wMul (t : EReal) (x : EReal) (s : EReal) = wDiv (t : EReal) (x : EReal) (s : EReal) := by
  have hpos : Real.exp s * Real.exp s ≠ 0 := (mul_pos (Real.exp_pos s) (Real.exp_pos s)).ne'
  have e1 : ((t : EReal) - (x : EReal)) * ((t : EReal) - (x : EReal)) = (((x - t) * (x - t) : ℝ) : EReal) := by
    rw [← EReal.coe_sub, ← EReal.coe_mul]; congr 1; ring
  have e2 : ((x : EReal) - (t : EReal)) * ((x : EReal) - (t : EReal)) = (((x - t) * (x - t) : ℝ) : EReal) := by
    rw [← EReal.coe_sub, ← EReal.coe_mul]
  have e3 : Ideal.exp (s : EReal) * Ideal.exp (s : EReal) = ((Real.exp s * Real.exp s : ℝ) : EReal) := by
    rw [Ideal.exp_coe, ← EReal.coe_mul]
  unfold wMul wDiv
  rw [e1, e2, e3, Ideal.div_coe hpos, Ideal.div_coe hpos, Cert.LibCoe.ofBits_one, ← EReal.coe_mul, one_mul]

/-- Channel `c` of context point `(b, n)`: the constant one for the density channel, the observed value `c - 1` else. -/
def chan (y : SY.Idx → EReal) (b : Fin 8) (n : Fin 1024) (c : Fin 9) : EReal :=
  Fin.cases (Ideal.ofBits .f32 0x3F800000#32) (fun k : Fin 8 => y (ix3 b n k)) c

/-- The weighted sum over the context points, for batch `b`, target `m`, channel `c`. -/
def wsum (x : SX.Idx → EReal) (y : SY.Idx → EReal) (t : SX.Idx → EReal) (σ : SSig.Idx → EReal)
    (b : Fin 8) (m : Fin 1024) (c : Fin 9) : EReal :=
  ∑ n : Fin 1024, wMul (t (ix3 b m (0 : Fin 1))) (x (ix3 b n (0 : Fin 1))) (σ (ix1 c)) * chan y b n c

/-- The nine features: the density, and every other channel's sum over `density + ε`. -/
def feat (x : SX.Idx → EReal) (y : SY.Idx → EReal) (t : SX.Idx → EReal) (σ : SSig.Idx → EReal)
    (b : Fin 8) (m : Fin 1024) (c : Fin 9) : EReal :=
  Fin.cases (wsum x y t σ b m 0)
    (fun k : Fin 8 => Ideal.div (wsum x y t σ b m k.succ) (wsum x y t σ b m 0 + Ideal.ofBits .f32 0x322BCC77#32)) c

/-- The layer's output at `(b, m, o)`. -/
def outAt (x : SX.Idx → EReal) (y : SY.Idx → EReal) (t : SX.Idx → EReal) (σ : SSig.Idx → EReal)
    (W : SW.Idx → EReal) (bias : SB.Idx → EReal) (b : Fin 8) (m : Fin 1024) (o : Fin 16) : EReal :=
  (∑ c : Fin 9, feat x y t σ b m c * W (ix2 o c)) + bias (ix1 o)

/-- The layer as one function of the argument arrays, index by index. -/
def G (x : SX.Idx → EReal) (y : SY.Idx → EReal) (t : SX.Idx → EReal) (σ : SSig.Idx → EReal)
    (W : SW.Idx → EReal) (bias : SB.Idx → EReal) : SOut.Idx → EReal :=
  fun i => outAt x y t σ W bias (i 0) (i 1) (i 2)

theorem G_ix3 (x : SX.Idx → EReal) (y : SY.Idx → EReal) (t : SX.Idx → EReal) (σ : SSig.Idx → EReal)
    (W : SW.Idx → EReal) (bias : SB.Idx → EReal) (b : Fin 8) (m : Fin 1024) (o : Fin 16) :
    G x y t σ W bias (ix3 b m o) = outAt x y t σ W bias b m o := rfl

end Cert.Spec

end
-- ==== Proof.Payload.lean ====
/-
  One grid point of the kernel, read at an index.

  At a grid point the body holds one batch's context points (`x`: 1024 abscissae, `y`: 1024 × 8 values), a tile of 128
  target points `t`, the nine log-scales, the 16 × 9 matrix and the 16 biases. It lays the squared distances out as a
  128 × 1024 table, raises them to nine tables of radial weights, multiplies by the nine channel rows (a row of ones on
  top of the transposed values) and sums along the context axis; the density row is kept, the other eight are divided
  by `density + ε`; the 9 × 128 table is transposed and contracted with the matrix, and the bias row is added.

  Every operation between the loads and the store either acts entry by entry or moves entries (a cast between shapes
  with the same row-major order, a transpose, a broadcast along unit axes, a slice, a concatenation). Read at one index
  of the result, each of the latter reads its operand at one index; the lemmas below say which, for the shapes this
  body uses, and the two theorems at the end compose them: the stored block at `(0, m, o)` as a function of the six
  loaded blocks.
-/
import proofs.«116332_j463856468358_1_alg».proof.Proof.Gen.KernelIdeal.Skeleton
import proofs.«116332_j463856468358_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelValue

open Cert.KernelIdeal Cert.KernelIdeal.Gen Idealize.ShloMosaic Idealize.ShloMosaic.ValueIdx
open Finset BigOperators

variable {α : Type}

/-! ## Broadcasts along unit axes -/

/-- A column `[128, 1]` broadcast to `[128, 1024]` reads its row's one entry. -/
theorem bc_col (v : S128x1.Idx → α) (h : S128x1.Broadcasts S128x1024) (m : Fin 128) (n : Fin 1024) :
    broadcastTo S128x1024 v h (ix2 m n) = v (ix2 m (0 : Fin 1)) :=
  broadcastTo_apply v h (ix2 m n) (ix2 m (0 : Fin 1)) fun a => match a with
    | ⟨0, _⟩ => by show m.val = if (128 : Nat) = 1 then 0 else m.val; rw [if_neg (by decide)]
    | ⟨1, _⟩ => by show (0 : Nat) = if (1 : Nat) = 1 then 0 else n.val; rw [if_pos rfl]

/-- A table `[1, 128, 1024]` broadcast to nine copies reads the one table. -/
theorem bc_lead3 (v : S1x128x1024.Idx → α) (h : S1x128x1024.Broadcasts S9x128x1024) (c : Fin 9) (m : Fin 128) (n : Fin 1024) :
    broadcastTo S9x128x1024 v h (ix3 c m n) = v (ix3 (0 : Fin 1) m n) :=
  broadcastTo_apply v h (ix3 c m n) (ix3 (0 : Fin 1) m n) fun a => match a with
    | ⟨0, _⟩ => by show (0 : Nat) = if (1 : Nat) = 1 then 0 else c.val; rw [if_pos rfl]
    | ⟨1, _⟩ => by show m.val = if (128 : Nat) = 1 then 0 else m.val; rw [if_neg (by decide)]
    | ⟨2, _⟩ => by show n.val = if (1024 : Nat) = 1 then 0 else n.val; rw [if_neg (by decide)]

/-- Nine scalars `[9, 1, 1]` broadcast to nine tables read the table's scalar. -/
theorem bc_scal3 (v : S9x1x1.Idx → α) (h : S9x1x1.Broadcasts S9x128x1024) (c : Fin 9) (m : Fin 128) (n : Fin 1024) :
    broadcastTo S9x128x1024 v h (ix3 c m n) = v (ix3 c (0 : Fin 1) (0 : Fin 1)) :=
  broadcastTo_apply v h (ix3 c m n) (ix3 c (0 : Fin 1) (0 : Fin 1)) fun a => match a with
    | ⟨0, _⟩ => by show c.val = if (9 : Nat) = 1 then 0 else c.val; rw [if_neg (by decide)]
    | ⟨1, _⟩ => by show (0 : Nat) = if (1 : Nat) = 1 then 0 else m.val; rw [if_pos rfl]
    | ⟨2, _⟩ => by show (0 : Nat) = if (1 : Nat) = 1 then 0 else n.val; rw [if_pos rfl]

/-- Nine rows `[9, 1, 1024]` broadcast over the 128 targets read the channel's row. -/
theorem bc_row3 (v : S9x1x1024.Idx → α) (h : S9x1x1024.Broadcasts S9x128x1024) (c : Fin 9) (m : Fin 128) (n : Fin 1024) :
    broadcastTo S9x128x1024 v h (ix3 c m n) = v (ix3 c (0 : Fin 1) n) :=
  broadcastTo_apply v h (ix3 c m n) (ix3 c (0 : Fin 1) n) fun a => match a with
    | ⟨0, _⟩ => by show c.val = if (9 : Nat) = 1 then 0 else c.val; rw [if_neg (by decide)]
    | ⟨1, _⟩ => by show (0 : Nat) = if (1 : Nat) = 1 then 0 else m.val; rw [if_pos rfl]
    | ⟨2, _⟩ => by show n.val = if (1024 : Nat) = 1 then 0 else n.val; rw [if_neg (by decide)]

/-- The feature table `[128, 9, 1]` broadcast over the 16 outputs reads its entry. -/
theorem bc_feat3 (v : S128x9x1.Idx → α) (h : S128x9x1.Broadcasts S128x9x16) (m : Fin 128) (c : Fin 9) (o : Fin 16) :
    broadcastTo S128x9x16 v h (ix3 m c o) = v (ix3 m c (0 : Fin 1)) :=
  broadcastTo_apply v h (ix3 m c o) (ix3 m c (0 : Fin 1)) fun a => match a with
    | ⟨0, _⟩ => by show m.val = if (128 : Nat) = 1 then 0 else m.val; rw [if_neg (by decide)]
    | ⟨1, _⟩ => by show c.val = if (9 : Nat) = 1 then 0 else c.val; rw [if_neg (by decide)]
    | ⟨2, _⟩ => by show (0 : Nat) = if (1 : Nat) = 1 then 0 else o.val; rw [if_pos rfl]

/-- The matrix `[1, 9, 16]` broadcast over the 128 targets reads the matrix. -/
theorem bc_mat3 (v : S1x9x16.Idx → α) (h : S1x9x16.Broadcasts S128x9x16) (m : Fin 128) (c : Fin 9) (o : Fin 16) :
    broadcastTo S128x9x16 v h (ix3 m c o) = v (ix3 (0 : Fin 1) c o) :=
  broadcastTo_apply v h (ix3 m c o) (ix3 (0 : Fin 1) c o) fun a => match a with
    | ⟨0, _⟩ => by show (0 : Nat) = if (1 : Nat) = 1 then 0 else m.val; rw [if_pos rfl]
    | ⟨1, _⟩ => by show c.val = if (9 : Nat) = 1 then 0 else c.val; rw [if_neg (by decide)]
    | ⟨2, _⟩ => by show o.val = if (16 : Nat) = 1 then 0 else o.val; rw [if_neg (by decide)]

/-! ## Transposes of matrices -/

/-- The abscissae `[1024, 1]` as a row. -/
theorem tr_x (v : S1024x1.Idx → α) (h : S1024x1.Transposes [1, 0] S1x1024) (n : Fin 1024) :
    transpose S1x1024 [1, 0] v h (ix2 (0 : Fin 1) n) = v (ix2 n (0 : Fin 1)) :=
  transpose_apply _ v h _ _ fun c => match c with | ⟨0, _⟩ => rfl | ⟨1, _⟩ => rfl

/-- The channel table `[1024, 9]` as nine rows. -/
theorem tr_chan (v : S1024x9.Idx → α) (h : S1024x9.Transposes [1, 0] S9x1024) (c : Fin 9) (n : Fin 1024) :
    transpose S9x1024 [1, 0] v h (ix2 c n) = v (ix2 n c) :=
  transpose_apply _ v h _ _ fun d => match d with | ⟨0, _⟩ => rfl | ⟨1, _⟩ => rfl

/-- The feature table `[9, 128]` by target. -/
theorem tr_feat (v : S9x128.Idx → α) (h : S9x128.Transposes [1, 0] S128x9) (m : Fin 128) (c : Fin 9) :
    transpose S128x9 [1, 0] v h (ix2 m c) = v (ix2 c m) :=
  transpose_apply _ v h _ _ fun d => match d with | ⟨0, _⟩ => rfl | ⟨1, _⟩ => rfl

/-- The matrix `[16, 9]` by channel. -/
theorem tr_mat (v : S16x9.Idx → α) (h : S16x9.Transposes [1, 0] S9x16) (c : Fin 9) (o : Fin 16) :
    transpose S9x16 [1, 0] v h (ix2 c o) = v (ix2 o c) :=
  transpose_apply _ v h _ _ fun d => match d with | ⟨0, _⟩ => rfl | ⟨1, _⟩ => rfl

/-! ## Casts that insert unit axes in the middle or at the end -/

/-- `[9]` cast to `[9, 1, 1]`. -/
theorem cast_scal3 (v : S9.Idx → α) (h : S9.ShapeCasts S9x1x1) (c : Fin 9) :
    shapeCast S9x1x1 v h (ix3 c (0 : Fin 1) (0 : Fin 1)) = v (ix1 c) :=
  shapeCast_apply v h _ _ (by
    rw [Shape.rowMajor_val_one, Shape.rowMajor_val_three]
    show c.val = (c.val * 1 + 0) * 1 + 0
    omega)

/-- `[9, 1024]` cast to `[9, 1, 1024]`. -/
theorem cast_row3 (v : S9x1024.Idx → α) (h : S9x1024.ShapeCasts S9x1x1024) (c : Fin 9) (n : Fin 1024) :
    shapeCast S9x1x1024 v h (ix3 c (0 : Fin 1) n) = v (ix2 c n) :=
  shapeCast_apply v h _ _ (by
    rw [Shape.rowMajor_val_two, Shape.rowMajor_val_three]
    show c.val * 1024 + n.val = (c.val * 1 + 0) * 1024 + n.val
    omega)

/-- `[128, 9]` cast to `[128, 9, 1]`. -/
theorem cast_feat3 (v : S128x9.Idx → α) (h : S128x9.ShapeCasts S128x9x1) (m : Fin 128) (c : Fin 9) :
    shapeCast S128x9x1 v h (ix3 m c (0 : Fin 1)) = v (ix2 m c) :=
  shapeCast_apply v h _ _ (by
    rw [Shape.rowMajor_val_two, Shape.rowMajor_val_three]
    show m.val * 9 + c.val = (m.val * 9 + c.val) * 1 + 0
    omega)

/-! ## The two concatenations, by channel -/

/-- The channel table `ones ++ values` along the channel axis: channel 0 reads the ones, channel `k + 1` the values'
    column `k`. -/
theorem cat_chan (a : S1024x1.Idx → α) (b : S1024x8.Idx → α) (h : Shape.Concatenates [S1024x1, S1024x8] S1024x9 1)
    (n : Fin 1024) (c : Fin 9) :
    concatenate S1024x9 1 [⟨S1024x1, a⟩, ⟨S1024x8, b⟩] h (ix2 n c)
      = Fin.cases (a (ix2 n (0 : Fin 1))) (fun k : Fin 8 => b (ix2 n k)) c := by
  refine Fin.cases ?_ (fun k => ?_) c
  · rw [Fin.cases_zero]
    refine concatenate_pair_apply_left (1 : Fin 2) a b h (ix2 n (0 : Fin 9)) rfl (ix2 n (0 : Fin 1)) fun d => ?_
    match d with
    | ⟨0, _⟩ => rfl
    | ⟨1, _⟩ => rfl
  · rw [Fin.cases_succ]
    refine concatenate_pair_apply_right (1 : Fin 2) a b h (ix2 n k.succ) rfl rfl (ix2 n k) (fun d hd => ?_) ?_
    · match d with
      | ⟨0, _⟩ => rfl
      | ⟨1, _⟩ => exact absurd rfl hd
    · show k.val + 1 = (Fin.succ k).val
      rw [Fin.val_succ]

/-- The feature table `density ++ normalised` along the channel axis. -/
theorem cat_feat (a : S1x128.Idx → α) (b : S8x128.Idx → α) (h : Shape.Concatenates [S1x128, S8x128] S9x128 0)
    (c : Fin 9) (m : Fin 128) :
    concatenate S9x128 0 [⟨S1x128, a⟩, ⟨S8x128, b⟩] h (ix2 c m)
      = Fin.cases (a (ix2 (0 : Fin 1) m)) (fun k : Fin 8 => b (ix2 k m)) c := by
  refine Fin.cases ?_ (fun k => ?_) c
  · rw [Fin.cases_zero]
    refine concatenate_pair_apply_left (0 : Fin 2) a b h (ix2 (0 : Fin 9) m) rfl (ix2 (0 : Fin 1) m) fun d => ?_
    match d with
    | ⟨0, _⟩ => rfl
    | ⟨1, _⟩ => rfl
  · rw [Fin.cases_succ]
    refine concatenate_pair_apply_right (0 : Fin 2) a b h (ix2 k.succ m) rfl rfl (ix2 k m) (fun d hd => ?_) ?_
    · match d with
      | ⟨0, _⟩ => exact absurd rfl hd
      | ⟨1, _⟩ => rfl
    · show k.val + 1 = (Fin.succ k).val
      rw [Fin.val_succ]

/-! ## The weighted sums -/

/-- Channel `c` of context point `n` as the body lays it out: one for channel 0, the loaded value `c - 1` else. -/
def chanB (v2 : Vec Ideal S1x1024x8 .f32) (n : Fin 1024) (c : Fin 9) : EReal :=
  Fin.cases (Ideal.ofBits .f32 0x3F800000#32) (fun k : Fin 8 => v2 (ix3 (0 : Fin 1) n k)) c

/-- The 9 × 128 table of weighted sums at `(c, m)`: the sum over the 1024 context points of the radial weight of
    target `m` and point `n` at scale `c` times channel `c` of point `n`. -/
theorem wsum_apply (v0 : Vec Ideal S1x1024x1 .f32) (v2 : Vec Ideal S1x1024x8 .f32) (v4 : Vec Ideal S1x128x1 .f32)
    (v6 : Vec Ideal S1x9 .f32) (c : Fin 9) (m : Fin 128) :
    k0_pay3 v0 v2 v4 v6 (ix2 c m)
      = ∑ n : Fin 1024, Cert.Spec.wMul (v4 (ix3 (0 : Fin 1) m (0 : Fin 1))) (v0 (ix3 (0 : Fin 1) n (0 : Fin 1)))
          (v6 (ix2 (0 : Fin 1) c)) * chanB v2 n c := by
  unfold k0_pay3
  refine (Ideal.multiReduction_add_single _ 0x00000000#32 _ _ _ (ix2 c m)).trans ?_
  refine Finset.sum_congr rfl fun (n : Fin 1024) _ => ?_
  have hl : Shape.Reduces.lift reduces_S9x128x1024_S9x128 (ix2 c m) n = (ix3 c m n : S9x128x1024.Idx) :=
    funext fun a => Fin.ext (by match a with | ⟨0, _⟩ => rfl | ⟨1, _⟩ => rfl | ⟨2, _⟩ => rfl)
  refine (congrArg (mulf _ _) hl).trans ?_
  unfold Cert.Spec.wMul chanB
  simp only [mulf_apply, subf_apply, divf_apply, broadcast_apply, exp, bc_lead3, bc_scal3, bc_row3, bc_col,
    cast_scal3, cast_row3, shapeCast_ab_1ab_apply, shapeCast_1ab_ab_apply, shapeCast_1a_a_apply,
    broadcastTo_1b_ab_apply]
  rw [tr_x _ _ n, tr_chan _ _ c n]
  simp only [shapeCast_1ab_ab_apply, cat_chan, broadcast_apply]
  rfl

/-! ## The features and the linear layer -/

/-- The stored block at `(0, m, o)` from the matrix, the bias, the density row, the eight other sums and the
    `ε` row: the nine features of target `m` (the density; each other sum over `density + ε`) contracted with row
    `o` of the matrix, plus bias `o`. -/
theorem linear_apply (v8 : Vec Ideal S16x9 .f32) (v10 : FVec Ideal S16 .f32) (v35 : FVec Ideal S1x128 .f32)
    (v36 : FVec Ideal S8x128 .f32) (v37 : FVec Ideal S1x128 .f32) (m : Fin 128) (o : Fin 16) :
    k0_pay1 v8 v10 v35 v36 v37 (ix3 (0 : Fin 1) m o)
      = (∑ c : Fin 9, Fin.cases (v35 (ix2 (0 : Fin 1) m))
            (fun k : Fin 8 => Ideal.div (v36 (ix2 k m)) (v35 (ix2 (0 : Fin 1) m) + v37 (ix2 (0 : Fin 1) m))) c
          * v8 (ix2 o c)) + v10 (ix1 o) := by
  unfold k0_pay1
  refine (shapeCast_ab_1ab_apply _ _ (0 : Fin 1) m o).trans ?_
  rw [addf_apply]
  refine congrArg₂ (· + ·) ?_ ?_
  · refine (Ideal.multiReduction_add_single _ 0x00000000#32 _ _ _ (ix2 m o)).trans ?_
    refine Finset.sum_congr rfl fun (c : Fin 9) _ => ?_
    have hl : Shape.Reduces.lift reduces_S128x9x16_S128x16 (ix2 m o) c = (ix3 m c o : S128x9x16.Idx) :=
      funext fun a => Fin.ext (by match a with | ⟨0, _⟩ => rfl | ⟨1, _⟩ => rfl | ⟨2, _⟩ => rfl)
    refine (congrArg (mulf _ _) hl).trans ?_
    simp only [mulf_apply, bc_feat3, bc_mat3, cast_feat3, shapeCast_ab_1ab_apply]
    rw [tr_feat _ _ m c, tr_mat _ _ c o, cat_feat]
    refine congrArg (· * v8 (ix2 o c)) ?_
    refine Fin.cases ?_ (fun k => ?_) c
    · rw [Fin.cases_zero, Fin.cases_zero]
    · rw [Fin.cases_succ, Fin.cases_succ, divf_apply, broadcastTo_1b_ab_apply, addf_apply]
  · simp only [broadcastTo_1b_ab_apply, shapeCast_a_1a_apply]

/-- THE BLOCK one grid point stores, at `(0, m, o)`, from the six blocks it loads: `x0` the batch's 1024 abscissae,
    `x1` its 1024 × 8 values, `x2` the tile's 128 targets, `x3` the log-scales, `x4` the matrix, `x5` the biases. -/
theorem block_apply (x0 : Vec Ideal S1x1024x1 .f32) (x1 : Vec Ideal S1x1024x8 .f32) (x2 : Vec Ideal S1x128x1 .f32)
    (x3 : Vec Ideal S1x9 .f32) (x4 : Vec Ideal S16x9 .f32) (x5 : Vec Ideal S1x16 .f32) (m : Fin 128) (o : Fin 16) :
    k0_pay1 x4 (k0_pay2 x5) (k0_pay4 x0 x1 x2 x3) (k0_pay5 x0 x1 x2 x3) (k0_pay6 (F := Ideal)) (ix3 (0 : Fin 1) m o)
      = (∑ c : Fin 9, Fin.cases (k0_pay3 x0 x1 x2 x3 (ix2 (0 : Fin 9) m))
            (fun k : Fin 8 => Ideal.div (k0_pay3 x0 x1 x2 x3 (ix2 k.succ m))
              (k0_pay3 x0 x1 x2 x3 (ix2 (0 : Fin 9) m) + Ideal.ofBits .f32 0x322BCC77#32)) c
          * x4 (ix2 o c)) + x5 (ix2 (0 : Fin 1) o) := by
  rw [linear_apply]
  have h4 : k0_pay4 x0 x1 x2 x3 (ix2 (0 : Fin 1) m) = k0_pay3 x0 x1 x2 x3 (ix2 (0 : Fin 9) m) := by
    unfold k0_pay4
    exact slice2_axis0_apply 0 _ _ (0 : Fin 1) m (0 : Fin 9) rfl
  have h5 : ∀ k : Fin 8, k0_pay5 x0 x1 x2 x3 (ix2 k m) = k0_pay3 x0 x1 x2 x3 (ix2 k.succ m) := fun k => by
    unfold k0_pay5
    exact slice2_axis0_apply 1 _ _ k m k.succ (by rw [Fin.val_succ, Nat.add_comm])
  have h2 : k0_pay2 x5 (ix1 o) = x5 (ix2 (0 : Fin 1) o) := by
    unfold k0_pay2
    exact shapeCast_1a_a_apply _ _ o
  have h6 : k0_pay6 (F := Ideal) (ix2 (0 : Fin 1) m) = Ideal.ofBits .f32 0x322BCC77#32 := rfl
  rw [h4, h2, h6]
  simp only [h5]

/-! ## The stored block is a block of the specification -/

/-- Target `p` of tile `mi`, as a target of the batch. -/
def tgt (mi : Nat) (hmi : mi < 8) (p : Fin 128) : Fin 1024 := ⟨mi * 128 + p.val, by have := p.isLt; omega⟩

section Block

variable (X : Cert.Spec.SX.Idx → EReal) (Y : Cert.Spec.SY.Idx → EReal) (T : Cert.Spec.SX.Idx → EReal)
  (σ : Cert.Spec.SSig.Idx → EReal) (W : Cert.Spec.SW.Idx → EReal) (bias : Cert.Spec.SB.Idx → EReal)
  (x0 : Vec Ideal S1x1024x1 .f32) (x1 : Vec Ideal S1x1024x8 .f32) (x2 : Vec Ideal S1x128x1 .f32)
  (x3 : Vec Ideal S1x9 .f32) (x4 : Vec Ideal S16x9 .f32) (x5 : Vec Ideal S1x16 .f32)
  (b : Fin 8) (mi : Nat) (hmi : mi < 8)

/-- When the loaded blocks are batch `b`'s context points and tile `mi`'s targets, the table of weighted sums is
    the specification's, target `p` of the tile being target `mi · 128 + p` of the batch. -/
theorem wsum_block
    (h0 : ∀ n : Fin 1024, x0 (ix3 (0 : Fin 1) n (0 : Fin 1)) = X (ix3 b n (0 : Fin 1)))
    (h1 : ∀ (n : Fin 1024) (k : Fin 8), x1 (ix3 (0 : Fin 1) n k) = Y (ix3 b n k))
    (h2 : ∀ p : Fin 128, x2 (ix3 (0 : Fin 1) p (0 : Fin 1)) = T (ix3 b (tgt mi hmi p) (0 : Fin 1)))
    (h3 : ∀ c : Fin 9, x3 (ix2 (0 : Fin 1) c) = σ (ix1 c))
    (c : Fin 9) (p : Fin 128) :
    k0_pay3 x0 x1 x2 x3 (ix2 c p) = Cert.Spec.wsum X Y T σ b (tgt mi hmi p) c := by
  rw [wsum_apply]
  unfold Cert.Spec.wsum
  refine Finset.sum_congr rfl fun n _ => ?_
  rw [h2 p, h0 n, h3 c]
  refine congrArg (Cert.Spec.wMul (T (ix3 b (tgt mi hmi p) (0 : Fin 1))) (X (ix3 b n (0 : Fin 1))) (σ (ix1 c)) * ·) ?_
  unfold chanB Cert.Spec.chan
  refine Fin.cases ?_ (fun k => ?_) c
  · rw [Fin.cases_zero, Fin.cases_zero]
  · rw [Fin.cases_succ, Fin.cases_succ, h1 n k]

/-- … and the stored block is the specification's block: entry `(0, p, o)` is the layer's output for batch `b`,
    target `mi · 128 + p`, output `o`. -/
theorem block_eq_G
    (h0 : ∀ n : Fin 1024, x0 (ix3 (0 : Fin 1) n (0 : Fin 1)) = X (ix3 b n (0 : Fin 1)))
    (h1 : ∀ (n : Fin 1024) (k : Fin 8), x1 (ix3 (0 : Fin 1) n k) = Y (ix3 b n k))
    (h2 : ∀ p : Fin 128, x2 (ix3 (0 : Fin 1) p (0 : Fin 1)) = T (ix3 b (tgt mi hmi p) (0 : Fin 1)))
    (h3 : ∀ c : Fin 9, x3 (ix2 (0 : Fin 1) c) = σ (ix1 c))
    (h4 : ∀ (o : Fin 16) (c : Fin 9), x4 (ix2 o c) = W (ix2 o c))
    (h5 : ∀ o : Fin 16, x5 (ix2 (0 : Fin 1) o) = bias (ix1 o))
    (p : Fin 128) (o : Fin 16) :
    k0_pay1 x4 (k0_pay2 x5) (k0_pay4 x0 x1 x2 x3) (k0_pay5 x0 x1 x2 x3) (k0_pay6 (F := Ideal)) (ix3 (0 : Fin 1) p o)
      = Cert.Spec.G X Y T σ W bias (ix3 b (tgt mi hmi p) o) := by
  rw [block_apply, Cert.Spec.G_ix3]
  unfold Cert.Spec.outAt
  rw [h5 o]
  refine congrArg (· + bias (ix1 o)) (Finset.sum_congr rfl fun c _ => ?_)
  rw [h4 o c]
  refine congrArg (· * W (ix2 o c)) ?_
  unfold Cert.Spec.feat
  simp only [wsum_block X Y T σ x0 x1 x2 x3 b mi hmi h0 h1 h2 h3]

end Block

end Cert.KernelValue

end
-- ==== Proof.KernelValue.lean ====
/-
  The kernel's run, read: the result array is the specification of the argument arrays.

  The grid has 8 × 8 points: point `(b, mi)` loads batch `b`'s 1024 context points (blocks `b` of `x` and `y`),
  tile `mi` of batch `b`'s targets (block `(b, mi)` of `t`), and the whole of the scales, the matrix and the
  biases; it writes block `(b, mi)` of the result, 128 targets × 16 outputs. The scales and the biases reach the
  region as one-row matrices (a cast of the argument vectors made before the region). A block's entry
  `(0, p, o)` sits at `(b, mi · 128 + p, o)` of its array; the body's block, read there, is the specification's
  value (the block theorem of the payload module); the 64 blocks tile the result; so the result is the
  specification everywhere.
-/
import proofs.«116332_j463856468358_1_alg».proof.Proof.Gen.KernelIdeal.Value
import proofs.«116332_j463856468358_1_alg».proof.Proof.Payload
import Idealize.ShloMosaic.Lib.StableHlo.Run

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification of core `c`'s six argument arrays. -/
def GK (c : Dev nD) : S8x1024x16.Idx → EReal :=
  Cert.Spec.G (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the 64 grid points: the context blocks follow the result's batch coordinate, the target
    block follows both coordinates, the three small operands stay at block 0; the result's block coordinates are
    below 8, 8 and 1. -/
theorem idx_facts : ∀ t : Fin cfg0.N,
    win0_0.index t (0 : Fin 3) = win0_6.index t (0 : Fin 3) ∧ win0_0.index t (1 : Fin 3) = 0 ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 3) = win0_6.index t (0 : Fin 3) ∧ win0_2.index t (1 : Fin 3) = win0_6.index t (1 : Fin 3) ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) < 8 ∧ win0_6.index t (1 : Fin 3) < 8 ∧ win0_6.index t (2 : Fin 3) = 0 :=
  (by decide +kernel : ∀ t : Fin grid0.N, _)

/-- Every block of the result is some point's. -/
theorem idx_onto : ∀ (q0 : Fin 8) (q1 : Fin 8), ∃ t : Fin cfg0.N, win0_6.index t = ![q0.val, q1.val, 0] :=
  (by decide +kernel : ∀ (q0 : Fin 8) (q1 : Fin 8), ∃ t : Fin grid0.N, win0_6.index t = ![q0.val, q1.val, 0])

/-- The scales as the region finds them: the argument vector as a one-row matrix. -/
theorem V_scales (c : Dev nD) :
    (V m c main_v0 : S1x9.Idx → EReal) = shapeCast S1x9 (m ((c : Thread nD τ).loc main_arg3)) Facts₀.shapeCasts_S9_S1x9 := by
  dsimp only [V, hostOps0]
  after_results
  rfl

/-- The biases as the region finds them: the argument vector as a one-row matrix. -/
theorem V_biases (c : Dev nD) :
    (V m c main_v1 : S1x16.Idx → EReal) = shapeCast S1x16 (m ((c : Thread nD τ).loc main_arg5)) Facts₀.shapeCasts_S16_S1x16 := by
  dsimp only [V, hostOps0]
  after_results
  rfl

/-- WHAT POINT `t` WRITES BACK is block `t` of the specification. -/
theorem flushed_eq (c : Dev nD) (t : Fin cfg0.N) :
    (dats m 0 c).flushed 6 t = ((cfg0.win 6).blk t).view.read (Elt Ideal) (GK m c) := by
  rw [Cert.KernelIdeal.Value.flushed6]
  unfold out0_6
  rw [View.canon_unit_zero hz3]
  simp only [View.ld_unit_zero (S := S1x1024x1) hz3, View.ld_unit_zero (S := S1x1024x8) hz3,
    View.ld_unit_zero (S := S1x128x1) hz3, View.ld_unit_zero (S := S1x9) hz2, View.ld_unit_zero (S := S16x9) hz2,
    View.ld_unit_zero (S := S1x16) hz2]
  obtain ⟨a00, a01, a02, a10, a11, a12, a20, a21, a22, a30, a31, a40, a41, a50, a51, hb, hmi, a62⟩ := idx_facts t
  funext j
  obtain ⟨u, p, o, rfl⟩ : ∃ (u : Fin 1) (p : Fin 128) (o : Fin 16), j = ix3 u p o := ⟨j 0, j 1, j 2, eq_ix3 j⟩
  obtain rfl : u = 0 := Subsingleton.elim _ _
  have hp : p.val < 128 := p.isLt
  have ho : o.val < 16 := o.isLt
  show k0_pay1 (iblk m c 4 t) (k0_pay2 (iblk m c 5 t)) (k0_pay4 (iblk m c 0 t) (iblk m c 1 t) (iblk m c 2 t) (iblk m c 3 t))
      (k0_pay5 (iblk m c 0 t) (iblk m c 1 t) (iblk m c 2 t) (iblk m c 3 t)) (k0_pay6 (F := Ideal)) (ix3 (0 : Fin 1) p o)
    = GK m c (((cfg0.win 6).blk t).view.emb (ix3 (0 : Fin 1) p o))
  have hemb : ((cfg0.win 6).blk t).view.emb (ix3 (0 : Fin 1) p o)
      = ix3 (⟨win0_6.index t (0 : Fin 3), hb⟩ : Fin 8) (tgt (win0_6.index t (1 : Fin 3)) hmi p) o := by
    funext a; apply Fin.ext
    match a with
    | ⟨0, _⟩ => show win0_6.index t (0 : Fin 3) * 1 + 1 * 0 = win0_6.index t (0 : Fin 3); omega
    | ⟨1, _⟩ => show win0_6.index t (1 : Fin 3) * 128 + 1 * p.val = win0_6.index t (1 : Fin 3) * 128 + p.val; omega
    | ⟨2, _⟩ => show win0_6.index t (2 : Fin 3) * 16 + 1 * o.val = o.val; omega
  rw [hemb]
  unfold GK
  refine block_eq_G _ _ _ _ _ _ (iblk m c 0 t) (iblk m c 1 t) (iblk m c 2 t) (iblk m c 3 t) (iblk m c 4 t) (iblk m c 5 t)
    ⟨win0_6.index t (0 : Fin 3), hb⟩ (win0_6.index t (1 : Fin 3)) hmi ?_ ?_ ?_ ?_ ?_ ?_ p o
  · intro n
    have hn : n.val < 1024 := n.isLt
    rw [← V_main_arg0 m c]
    show V m c main_arg0 (((cfg0.win 0).blk t).view.emb (ix3 (0 : Fin 1) n (0 : Fin 1))) = _
    refine congrArg _ (funext fun a => Fin.ext ?_)
    match a with
    | ⟨0, _⟩ => show win0_0.index t (0 : Fin 3) * 1 + 1 * 0 = win0_6.index t (0 : Fin 3); omega
    | ⟨1, _⟩ => show win0_0.index t (1 : Fin 3) * 1024 + 1 * n.val = n.val; omega
    | ⟨2, _⟩ => show win0_0.index t (2 : Fin 3) * 1 + 1 * 0 = 0; omega
  · intro n k
    have hn : n.val < 1024 := n.isLt
    have hk : k.val < 8 := k.isLt
    rw [← V_main_arg1 m c]
    show V m c main_arg1 (((cfg0.win 1).blk t).view.emb (ix3 (0 : Fin 1) n k)) = _
    refine congrArg _ (funext fun a => Fin.ext ?_)
    match a with
    | ⟨0, _⟩ => show win0_1.index t (0 : Fin 3) * 1 + 1 * 0 = win0_6.index t (0 : Fin 3); omega
    | ⟨1, _⟩ => show win0_1.index t (1 : Fin 3) * 1024 + 1 * n.val = n.val; omega
    | ⟨2, _⟩ => show win0_1.index t (2 : Fin 3) * 8 + 1 * k.val = k.val; omega
  · intro q
    have hq : q.val < 128 := q.isLt
    rw [← V_main_arg2 m c]
    show V m c main_arg2 (((cfg0.win 2).blk t).view.emb (ix3 (0 : Fin 1) q (0 : Fin 1))) = _
    refine congrArg _ (funext fun a => Fin.ext ?_)
    match a with
    | ⟨0, _⟩ => show win0_2.index t (0 : Fin 3) * 1 + 1 * 0 = win0_6.index t (0 : Fin 3); omega
    | ⟨1, _⟩ => show win0_2.index t (1 : Fin 3) * 128 + 1 * q.val = win0_6.index t (1 : Fin 3) * 128 + q.val; omega
    | ⟨2, _⟩ => show win0_2.index t (2 : Fin 3) * 1 + 1 * 0 = 0; omega
  · intro k
    have hk : k.val < 9 := k.isLt
    refine Eq.trans ?_ (shapeCast_a_1a_apply (m ((c : Thread nD τ).loc main_arg3)) Facts₀.shapeCasts_S9_S1x9 (0 : Fin 1) k)
    rw [← V_scales m c]
    show V m c main_v0 (((cfg0.win 3).blk t).view.emb (ix2 (0 : Fin 1) k)) = _
    refine congrArg _ (funext fun a => Fin.ext ?_)
    match a with
    | ⟨0, _⟩ => show win0_3.index t (0 : Fin 2) * 1 + 1 * 0 = 0; omega
    | ⟨1, _⟩ => show win0_3.index t (1 : Fin 2) * 9 + 1 * k.val = k.val; omega
  · intro q k
    have hq : q.val < 16 := q.isLt
    have hk : k.val < 9 := k.isLt
    rw [← V_main_arg4 m c]
    show V m c main_arg4 (((cfg0.win 4).blk t).view.emb (ix2 q k)) = _
    refine congrArg _ (funext fun a => Fin.ext ?_)
    match a with
    | ⟨0, _⟩ => show win0_4.index t (0 : Fin 2) * 16 + 1 * q.val = q.val; omega
    | ⟨1, _⟩ => show win0_4.index t (1 : Fin 2) * 9 + 1 * k.val = k.val; omega
  · intro q
    have hq : q.val < 16 := q.isLt
    refine Eq.trans ?_ (shapeCast_a_1a_apply (m ((c : Thread nD τ).loc main_arg5)) Facts₀.shapeCasts_S16_S1x16 (0 : Fin 1) q)
    rw [← V_biases m c]
    show V m c main_v1 (((cfg0.win 5).blk t).view.emb (ix2 (0 : Fin 1) q)) = _
    refine congrArg _ (funext fun a => Fin.ext ?_)
    match a with
    | ⟨0, _⟩ => show win0_5.index t (0 : Fin 2) * 1 + 1 * 0 = 0; omega
    | ⟨1, _⟩ => show win0_5.index t (1 : Fin 2) * 16 + 1 * q.val = q.val; omega

/-- An index of the result is in point `t`'s block iff each coordinate is in the block's range on its axis. -/
theorem mem_blk (t : Fin cfg0.N) (i : S8x1024x16.Idx) :
    i ∈ ((cfg0.win 6).blk t).view.set ↔ ∀ a : Fin 3, win0_6.index t a * S1x128x16.size a ≤ (i a).val ∧ (i a).val < win0_6.index t a * S1x128x16.size a + S1x128x16.size a := by
  show i ∈ ((View.whole main_v2).slice (win0_6.rect t)).set ↔ _
  rw [View.set_slice_whole, Rect.mem_set_unit]
  exact Iff.rfl

/-- The 64 blocks cover the result: index `(b, r, o)` is in the block of point `(b, r / 128)`. -/
theorem cover (i : S8x1024x16.Idx) : ∃ t : Fin cfg0.N, (cfg0.win 6).flush t = true ∧ i ∈ ((cfg0.win 6).blk t).view.set := by
  have hi0 : (i 0).val < 8 := (i 0).isLt
  have hi1 : (i 1).val < 1024 := (i 1).isLt
  have hi2 : (i 2).val < 16 := (i 2).isLt
  obtain ⟨t, ht⟩ := idx_onto ⟨(i 0).val, hi0⟩ ⟨(i 1).val / 128, by omega⟩
  have q0 : win0_6.index t (0 : Fin 3) = (i 0).val := congrFun ht 0
  have q1 : win0_6.index t (1 : Fin 3) = (i 1).val / 128 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 16 ≤ (i 2).val ∧ (i 2).val < win0_6.index t (2 : Fin 3) * 16 + 16; omega

/-- THE RESULT ARRAY after the run is the specification of the argument arrays. -/
theorem final (c : Dev nD) : (dats m 0 c).arrAt 6 cfg0.N = GK m c :=
  (dats m 0 c).arrAt_eq_of_cover 6 (GK m c) (fun t _ => flushed_eq m c t) cover

/-- The kernel's run: every weakly fair execution terminates with the result at the specification and the arguments
    unchanged. -/
theorem run : θ_run defs (onTc (τ := τ) (main (F := Ideal))) ⟨m, fun _ => 0, ρ⟩ fun r => ∀ c : Dev nD,
      r.2.mem ((c : Thread nD τ).loc main_v2) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelValue

end
-- ==== Proof.RefValue.lean ====
/-
  The reference program's result, read index by index, is the specification.

  The reference forms, for every batch b, context point n, target point m and channel c, the product of the
  channel value (the constant one for channel 0, the observed value c - 1 else) with the radial weight
  exp((-½ (x_n - t_m)²) / (e^σ_c · e^σ_c)), sums it over the context points, keeps the density (channel 0),
  divides every other channel by density + ε, and applies the linear layer. Each stage of the program is read at
  an index through the stage's own reading lemma; the two concatenations (the ones joined to the observed values,
  the density joined to the normalised channels) are read by the position of the channel on the joined axis.
  With real x, t and σ the weight written with a divisor is the weight written with a reciprocal factor, which
  is how the specification spells it.
-/
import proofs.«116332_j463856468358_1_alg».proof.Proof.Gen.ReferenceIdeal.Read
import proofs.«116332_j463856468358_1_alg».proof.Proof.Spec
import Idealize.ShloMosaic.Lib.Pipeline.Value
import Idealize.ShloMosaic.Lib.ValueIdx
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx
open Finset BigOperators

/-- The ones joined to the observed values, at (b, n, c): the specification's channel value. -/
theorem chan_eq (x1 : (⟨S8x1024x8, .f32⟩ : BufTy).Contents (Elt Ideal)) (b : Fin 8) (n : Fin 1024) (c : Fin 9) :
    val_main_v17 (F := Ideal) x1 (ix3 b n c) = Cert.Spec.chan x1 b n c := by
  unfold val_main_v17 Cert.Spec.chan
  induction c using Fin.cases with
  | zero =>
    rw [Fin.cases_zero]
    rw [concatenate_pair_apply_left 2 (val_main_v16 (F := Ideal)) x1 concatenates_S8x1024x1_S8x1024x8_S8x1024x9_d2
      (ix3 b n (0 : Fin 9)) rfl (ix3 b n (0 : Fin 1)) (fun a => by
        match a with
        | ⟨0, _⟩ => rfl
        | ⟨1, _⟩ => rfl
        | ⟨2, _⟩ => rfl)]
    rw [val_main_v16_apply, val_main_cst_0_apply, Ideal.ofBits_def]
  | succ k =>
    rw [Fin.cases_succ]
    exact concatenate_pair_apply_right 2 (val_main_v16 (F := Ideal)) x1 concatenates_S8x1024x1_S8x1024x8_S8x1024x9_d2
      (ix3 b n k.succ) rfl rfl (ix3 b n k)
      (fun a ha => by
        match a with
        | ⟨0, _⟩ => rfl
        | ⟨1, _⟩ => rfl
        | ⟨2, _⟩ => exact absurd rfl ha)
      rfl

/-- One term of the sum over the context points, at (b, n, m, c): the channel value times the weight written
    with the scale as a divisor. -/
theorem weight_term (x0 : (⟨S8x1024x1, .f32⟩ : BufTy).Contents (Elt Ideal)) (x1 : (⟨S8x1024x8, .f32⟩ : BufTy).Contents (Elt Ideal))
    (x2 : (⟨S8x1024x1, .f32⟩ : BufTy).Contents (Elt Ideal)) (x3 : (⟨S9, .f32⟩ : BufTy).Contents (Elt Ideal))
    (b : Fin 8) (n m : Fin 1024) (c : Fin 9) :
    val_main_v20 (F := Ideal) x0 x1 x2 x3 (ix4 b n m c)
      = Cert.Spec.chan x1 b n c
        * Cert.Spec.wDiv (x2 (ix3 b m (0 : Fin 1))) (x0 (ix3 b n (0 : Fin 1))) (x3 (ix1 c)) := by
  have e19 : idx_main_v18 (idx_main_v19 (ix4 b n m c)) = ix3 b n c :=
    funext fun a => Fin.ext (by match a with | ⟨0, _⟩ => rfl | ⟨1, _⟩ => rfl | ⟨2, _⟩ => rfl)
  have e1 : idx_main_v1 (idx_main_v6 (idx_main_v11 (ix4 b n m c))) = ix3 b n (0 : Fin 1) :=
    funext fun a => Fin.ext (by match a with | ⟨0, _⟩ => rfl | ⟨1, _⟩ => rfl | ⟨2, _⟩ => rfl)
  have e2 : idx_main_v0 (idx_main_v2 (idx_main_v6 (idx_main_v11 (ix4 b n m c)))) = ix3 b m (0 : Fin 1) :=
    funext fun a => Fin.ext (by match a with | ⟨0, _⟩ => rfl | ⟨1, _⟩ => rfl | ⟨2, _⟩ => rfl)
  have e3 : idx_main_v10 (idx_main_v12 (ix4 b n m c)) = ix1 c :=
    funext fun a => Fin.ext (by match a with | ⟨0, _⟩ => rfl)
  rw [val_main_v20_apply, val_main_v19_apply, val_main_v18_apply, e19, chan_eq,
    val_main_v14_apply, val_main_v13_apply, val_main_v11_apply, val_main_v8_apply, val_main_v7_apply, val_main_cst_apply,
    val_main_v6_apply, val_main_v4_apply, val_main_v3_apply, val_main_v1_apply, val_main_v2_apply, val_main_v0_apply, e1, e2,
    val_main_v12_apply, val_main_v10_apply, val_main_v9_apply, val_main_v5_apply, e3]
  rfl

/-- The reference's sum over the context points, at (b, m, c), is the specification's weighted sum: the initial
    value is zero, and on real t, x, σ each term's weight is the specification's. -/
theorem wsum_eq (x0 : (⟨S8x1024x1, .f32⟩ : BufTy).Contents (Elt Ideal)) (x1 : (⟨S8x1024x8, .f32⟩ : BufTy).Contents (Elt Ideal))
    (x2 : (⟨S8x1024x1, .f32⟩ : BufTy).Contents (Elt Ideal)) (x3 : (⟨S9, .f32⟩ : BufTy).Contents (Elt Ideal))
    (hx : ∀ i, ∃ r : ℝ, x0 i = (r : EReal)) (ht : ∀ i, ∃ r : ℝ, x2 i = (r : EReal)) (hs : ∀ i, ∃ r : ℝ, x3 i = (r : EReal))
    (b : Fin 8) (m : Fin 1024) (c : Fin 9) :
    val_main_v21 (F := Ideal) x0 x1 x2 x3 (ix3 b m c) = Cert.Spec.wsum x0 x1 x2 x3 b m c := by
  rw [val_main_v21_apply, val_main_cst_1_apply, Ideal.ofBits_def, Ideal.ofBits_zero_f32, zero_add]
  unfold Cert.Spec.wsum
  refine Finset.sum_congr rfl fun n _ => ?_
  have e : idx_main_v21 (ix3 b m c) n = ix4 b n m c :=
    funext fun a => Fin.ext (by match a with | ⟨0, _⟩ => rfl | ⟨1, _⟩ => rfl | ⟨2, _⟩ => rfl | ⟨3, _⟩ => rfl)
  rw [e, weight_term]
  obtain ⟨tr, htr⟩ := ht (ix3 b m (0 : Fin 1))
  obtain ⟨xr, hxr⟩ := hx (ix3 b n (0 : Fin 1))
  obtain ⟨sr, hsr⟩ := hs (ix1 c)
  rw [htr, hxr, hsr, Cert.Spec.wMul_eq_wDiv, mul_comm]

/-- The density joined to the normalised channels, at (b, m, c): the specification's feature. -/
theorem feat_eq (x0 : (⟨S8x1024x1, .f32⟩ : BufTy).Contents (Elt Ideal)) (x1 : (⟨S8x1024x8, .f32⟩ : BufTy).Contents (Elt Ideal))
    (x2 : (⟨S8x1024x1, .f32⟩ : BufTy).Contents (Elt Ideal)) (x3 : (⟨S9, .f32⟩ : BufTy).Contents (Elt Ideal))
    (hx : ∀ i, ∃ r : ℝ, x0 i = (r : EReal)) (ht : ∀ i, ∃ r : ℝ, x2 i = (r : EReal)) (hs : ∀ i, ∃ r : ℝ, x3 i = (r : EReal))
    (b : Fin 8) (m : Fin 1024) (c : Fin 9) :
    val_main_v28 (F := Ideal) x0 x1 x2 x3 (ix3 b m c) = Cert.Spec.feat x0 x1 x2 x3 b m c := by
  have e22 : idx_main_v22 (ix3 b m (0 : Fin 1)) = ix3 b m (0 : Fin 9) :=
    funext fun a => Fin.ext (by match a with | ⟨0, _⟩ => rfl | ⟨1, _⟩ => rfl | ⟨2, _⟩ => rfl)
  unfold val_main_v28 Cert.Spec.feat
  induction c using Fin.cases with
  | zero =>
    rw [Fin.cases_zero]
    rw [concatenate_pair_apply_left 2 (val_main_v22 (F := Ideal) x0 x1 x2 x3) (val_main_v27 (F := Ideal) x0 x1 x2 x3)
      concatenates_S8x1024x1_S8x1024x8_S8x1024x9_d2
      (ix3 b m (0 : Fin 9)) rfl (ix3 b m (0 : Fin 1)) (fun a => by
        match a with
        | ⟨0, _⟩ => rfl
        | ⟨1, _⟩ => rfl
        | ⟨2, _⟩ => rfl)]
    rw [val_main_v22_apply, e22, wsum_eq x0 x1 x2 x3 hx ht hs]
  | succ k =>
    rw [Fin.cases_succ]
    rw [concatenate_pair_apply_right 2 (val_main_v22 (F := Ideal) x0 x1 x2 x3) (val_main_v27 (F := Ideal) x0 x1 x2 x3)
      concatenates_S8x1024x1_S8x1024x8_S8x1024x9_d2
      (ix3 b m k.succ) rfl rfl (ix3 b m k)
      (fun a ha => by
        match a with
        | ⟨0, _⟩ => rfl
        | ⟨1, _⟩ => rfl
        | ⟨2, _⟩ => exact absurd rfl ha)
      rfl]
    have e23 : idx_main_v23 (ix3 b m k) = ix3 b m k.succ :=
      funext fun a => Fin.ext (by
        match a with
        | ⟨0, _⟩ => rfl
        | ⟨1, _⟩ => rfl
        | ⟨2, _⟩ => exact Nat.add_comm 1 k.val)
    have e26 : idx_main_v26 (ix3 b m k) = ix3 b m (0 : Fin 1) :=
      funext fun a => Fin.ext (by match a with | ⟨0, _⟩ => rfl | ⟨1, _⟩ => rfl | ⟨2, _⟩ => rfl)
    rw [val_main_v27_apply, val_main_v23_apply, e23, val_main_v26_apply, e26, val_main_v25_apply, val_main_v22_apply, e22,
      val_main_v24_apply, val_main_cst_2_apply, wsum_eq x0 x1 x2 x3 hx ht hs, wsum_eq x0 x1 x2 x3 hx ht hs]
    rfl

/-- The reference's result is the specification, on real x, t and σ. -/
theorem ref_eq_G
    (x0 : (⟨S8x1024x1, .f32⟩ : BufTy).Contents (Elt Ideal)) (x1 : (⟨S8x1024x8, .f32⟩ : BufTy).Contents (Elt Ideal))
    (x2 : (⟨S8x1024x1, .f32⟩ : BufTy).Contents (Elt Ideal)) (x3 : (⟨S9, .f32⟩ : BufTy).Contents (Elt Ideal))
    (x4 : (⟨S16x9, .f32⟩ : BufTy).Contents (Elt Ideal)) (x5 : (⟨S16, .f32⟩ : BufTy).Contents (Elt Ideal))
    (hx : ∀ i, ∃ r : ℝ, x0 i = (r : EReal)) (ht : ∀ i, ∃ r : ℝ, x2 i = (r : EReal)) (hs : ∀ i, ∃ r : ℝ, x3 i = (r : EReal)) :
    val_main_v32 (F := Ideal) x0 x1 x2 x3 x4 x5 = Cert.Spec.G x0 x1 x2 x3 x4 x5 := by
  funext i
  obtain ⟨b, m, o, rfl⟩ : ∃ (b : Fin 8) (m : Fin 1024) (o : Fin 16), i = ix3 b m o := ⟨i 0, i 1, i 2, eq_ix3 i⟩
  rw [Cert.Spec.G_ix3]
  unfold Cert.Spec.outAt
  have eb : idx_main_v30 (idx_main_v31 (ix3 b m o)) = ix1 o :=
    funext fun a => Fin.ext (by match a with | ⟨0, _⟩ => rfl)
  rw [val_main_v32_apply, val_main_v29_apply, val_main_v31_apply, val_main_v30_apply, eb, Ideal.addf_def]
  congr 1
  refine Finset.sum_congr rfl fun c _ => ?_
  have el : lidx_main_v29 (ix3 b m o) c = ix3 b m c :=
    funext fun a => Fin.ext (by match a with | ⟨0, _⟩ => rfl | ⟨1, _⟩ => rfl | ⟨2, _⟩ => rfl)
  have er : ridx_main_v29 (ix3 b m o) c = ix2 o c :=
    funext fun a => Fin.ext (by match a with | ⟨0, _⟩ => rfl | ⟨1, _⟩ => rfl)
  rw [el, er, feat_eq x0 x1 x2 x3 hx ht hs]

end Cert.RefValue

end
-- ==== Proof.lean ====
/-
  A set-convolution layer: a fused kernel against its array-level reference, equal over the extended reals.

  For every batch `b`, target point `m` and channel `c` both programs weigh each of the 1024 context points `n`
  by `exp(-½ (t_m - x_n)² / s_c²)`, `s_c = exp σ_c`, sum the weighted channel values over `n` (channel 0 the
  constant one, the density), keep the density, divide the other eight sums by `density + ε`, and apply a 9-to-16
  linear layer. They differ in three places, none of which is seen by exact arithmetic on finite inputs: the kernel
  squares `t - x` where the reference squares `x - t`; the kernel multiplies by the reciprocal `1 / (s·s)` where
  the reference divides by `s·s` (a positive real, as `σ` is finite); and the two factors of each summand are
  in the other order. Both sums over `n` and both contractions over `c` are plain finite sums.

  The kernel works tile by tile on an 8 × 8 grid (batch × tile of 128 targets); its result array is read block by
  block from the run of its frame and shown to be the specification `Cert.Spec.G` of the six argument arrays. The
  reference's result, stage by stage, is the same function once `x`, `t` and `σ` are known to hold real numbers,
  which is what the precondition gives. Neither program writes an argument array.
-/
import proofs.«116332_j463856468358_1_alg».proof.Defs
import proofs.«116332_j463856468358_1_alg».proof.Proof.Gen.Kernel
import proofs.«116332_j463856468358_1_alg».proof.Proof.Gen.Kernel.Skeleton
import proofs.«116332_j463856468358_1_alg».proof.Proof.Gen.Kernel.Launch
import proofs.«116332_j463856468358_1_alg».proof.Proof.Gen.Kernel.Points
import proofs.«116332_j463856468358_1_alg».proof.Proof.Gen.Kernel.Frame
import proofs.«116332_j463856468358_1_alg».proof.Proof.Gen.KernelIdeal
import proofs.«116332_j463856468358_1_alg».proof.Proof.Gen.KernelIdeal.Skeleton
import proofs.«116332_j463856468358_1_alg».proof.Proof.Gen.KernelIdeal.Launch
import proofs.«116332_j463856468358_1_alg».proof.Proof.Gen.KernelIdeal.Points
import proofs.«116332_j463856468358_1_alg».proof.Proof.Gen.KernelIdeal.Frame
import proofs.«116332_j463856468358_1_alg».proof.Proof.Gen.ReferenceIdeal
import proofs.«116332_j463856468358_1_alg».proof.Proof.Gen.Pre_finite_inputs
import proofs.«116332_j463856468358_1_alg».proof.Proof.Gen.KernelIdeal.Value
import proofs.«116332_j463856468358_1_alg».proof.Proof.Gen.ReferenceIdeal.Run
import proofs.«116332_j463856468358_1_alg».proof.Proof.Gen.ReferenceIdeal.Read
import proofs.«116332_j463856468358_1_alg».proof.Proof.Finite
import proofs.«116332_j463856468358_1_alg».proof.Proof.KernelValue
import proofs.«116332_j463856468358_1_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a sequence of array operations: its run ends, and the arguments are among the buffers it
    leaves alone. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the six arguments, the kernel's result array and the reference's are one
    function of those arguments: the kernel's by its run read block by block, the reference's stage by stage, given
    that finite `x`, `t` and `σ` are real. -/
theorem algebraic : Cert.algebraic_KernelIdeal_ReferenceIdeal := by
  intro m ρ m' ρ' hpre hagree
  refine ⟨fun c => Cert.KernelValue.GK m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ht, hs⟩ := Cert.Finite.real_of_pre _ _ _ _ _ _ (hpre c)
  rw [Cert.ReferenceIdeal.Read.val_main_v32_eq, (hagree c).1, (hagree c).2.1, (hagree c).2.2.1, (hagree c).2.2.2.1,
    (hagree c).2.2.2.2.1, (hagree c).2.2.2.2.2]
  exact Cert.RefValue.ref_eq_G _ _ _ _ _ _ hx ht hs

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
